-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S1600000 32) (main_arg1 : IVec S1600000 32) (main_arg2 : FVec F S1600000 .f32) (main_arg3 : FVec F S100000x128 .f32) (main_arg4 : FVec F S128x128 .f32) (main_arg5 : FVec F S128 .f32) (main_arg6 : FVec F S128x128 .f32) (main_arg7 : FVec F S128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S4000x128 : Shape := ⟨2, ![4000, 128]⟩

abbrev nBuf : Space → Nat
  | .hbm => 27
  | .vmem => 10
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S1x128, .f32⟩
  | .hbm, ⟨26, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .i1⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .i1⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.TwoBranchSpec.lean ====
/-
  The layer both programs compute from an aggregated node array `a` (the sum, over the edges into a node, of the edge
  value times the source node's feature row), the node features `f`, two 128 x 128 weight matrices and two bias rows:
  at node p and output feature q

      out(p, q) = leaky( sum_k a(p,k) W1(k,q) + b1(q) )  +  leaky( sum_k (a(p,k) f(p,k)) W2(k,q) + b2(q) ),

  on the extended reals, where leaky(x) is x when x >= 0 and c x otherwise, c the single-precision number nearest 0.2.
  Nothing here depends on how many rows there are, so the same function describes one block of rows and the whole array.
-/
import Idealize.ShloMosaic.PureOps.Ideal
import Idealize.ShloMosaic.Lib.ValueIdx

noncomputable section

namespace Cert.TwoBranch

open Idealize.ShloMosaic Idealize.ShloMosaic.ValueIdx

/-- The leaky rectifier: `x` where `x ≥ 0`, else the slope times `x`. The comparison is the machine's ordered
    greater-or-equal against the zero word, the slope the word of the single-precision number nearest 0.2. -/
def leaky (x : Ideal .f32) : Ideal .f32 :=
  Scalar.select (FloatOps.cmpf .oge x (FloatOps.ofBits .f32 0x00000000#32)) x
    (FloatOps.mulf (FloatOps.ofBits .f32 0x3E4CCCCD#32) x)

/-- One branch before its rectifier, at row `p` and column `q`: row `p` of `a` against column `q` of `W`, plus the
    bias at `q`. -/
def affine {R : ℕ} (a : FVec Ideal ⟨2, ![R, 128]⟩ .f32) (W : FVec Ideal ⟨2, ![128, 128]⟩ .f32) (b : Fin 128 → Ideal .f32)
    (p : Fin R) (q : Fin 128) : Ideal .f32 :=
  (∑ k : Fin 128, a (ix2 p k) * W (ix2 k q)) + b q

/-- The two rectified branches added: the first on `a`, the second on the entrywise product of `a` and `f`. -/
def mix {R : ℕ} (a f : FVec Ideal ⟨2, ![R, 128]⟩ .f32) (W1 W2 : FVec Ideal ⟨2, ![128, 128]⟩ .f32)
    (b1 b2 : Fin 128 → Ideal .f32) : FVec Ideal ⟨2, ![R, 128]⟩ .f32 :=
  fun j => leaky (affine a W1 b1 (j 0) (j 1)) + leaky (affine (fun i => a i * f i) W2 b2 (j 0) (j 1))

/-- The layer at an index written by its coordinates. -/
theorem mix_ix2 {R : ℕ} (a f : FVec Ideal ⟨2, ![R, 128]⟩ .f32) (W1 W2 : FVec Ideal ⟨2, ![128, 128]⟩ .f32)
    (b1 b2 : Fin 128 → Ideal .f32) (p : Fin R) (q : Fin 128) :
    mix a f W1 W2 b1 b2 (ix2 p q)
      = leaky (affine a W1 b1 p q) + leaky (affine (fun i => a i * f i) W2 b2 p q) := rfl

/-- A branch depends on `a` only through row `p`. -/
theorem affine_congr {R R' : ℕ} (a : FVec Ideal ⟨2, ![R, 128]⟩ .f32) (a' : FVec Ideal ⟨2, ![R', 128]⟩ .f32)
    (W : FVec Ideal ⟨2, ![128, 128]⟩ .f32) (b : Fin 128 → Ideal .f32) (p : Fin R) (p' : Fin R') (q : Fin 128)
    (h : ∀ k : Fin 128, a (ix2 p k) = a' (ix2 p' k)) : affine a W b p q = affine a' W b p' q := by
  unfold affine
  exact congrArg (· + b q) (Finset.sum_congr rfl fun k _ => by rw [h k])

end Cert.TwoBranch

end
-- ==== Proof.BlockPayload.lean ====
/-
  What the kernel body stores at one grid point, read at row p and column q of its 4000 x 128 block: from the block of the
  aggregated array, the block of node features, the two weight matrices and the two bias rows it loads, it is the
  two-branch layer of those blocks. The matrix products accumulate into zeros, so each is the plain sum over the 128
  contracted positions; the casts to the narrower format before them are the identity on the extended reals; a bias row
  of shape 1 x 128 broadcast over the rows reads its one row.
-/
import proofs.«110677_j3693671874622_1_alg».proof.Proof.Gen.KernelIdeal.Skeleton
import proofs.«110677_j3693671874622_1_alg».proof.Proof.LibPlainDot
import proofs.«110677_j3693671874622_1_alg».proof.Proof.TwoBranchSpec
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The kernel's product contracts the left operand's columns with the right operand's rows and has no batch axes. -/
theorem dot_plain : PlainDot.IsPlain dot_S4000x128_S128x128_S4000x128_1_0_0_1_n_n := ⟨rfl, rfl, rfl, rfl, rfl, rfl⟩

/-- One branch of the body before its rectifier, as the body computes it: both operands cast to the narrower format, the
    product accumulated into zeros, the bias row broadcast over the rows and added. -/
def branchVec (a : FVec Ideal S4000x128 .f32) (w : FVec Ideal S128x128 .f32) (r : FVec Ideal S1x128 .f32) :
    FVec Ideal S4000x128 .f32 :=
  addf (matmul (F := Ideal) dot_S4000x128_S128x128_S4000x128_1_0_0_1_n_n none (truncf (F := Ideal) .bf16 a bitsLt_bf16_f32)
      (truncf (F := Ideal) .bf16 w bitsLt_bf16_f32) (constant (F := Ideal) S4000x128 .f32 0x00000000#32))
    (broadcastTo S4000x128 r broadcasts_S1x128_S4000x128)

/-- The rectifier as the body computes it on a whole block: compare with a block of zeros, scale by a block of the slope,
    select. -/
def leakyVec (v : FVec Ideal S4000x128 .f32) : FVec Ideal S4000x128 .f32 :=
  select (cmpf (F := Ideal) .oge v (broadcast S4000x128 (FloatOps.ofBits (F := Ideal) .f32 0x00000000#32))) v
    (mulf (F := Ideal) (broadcast S4000x128 (FloatOps.ofBits (F := Ideal) .f32 0x3E4CCCCD#32)) v)

/-- The body's stored value is the sum of its two rectified branches; the casts of a block to its own shape are dropped. -/
theorem pay_eq (x0 x1 : FVec Ideal S4000x128 .f32) (w1 w2 : FVec Ideal S128x128 .f32) (r1 r2 : FVec Ideal S1x128 .f32) :
    k0_pay1 (F := Ideal) x0 x1 w1 w2 r1 r2
      = addf (F := Ideal) (leakyVec (branchVec x0 w1 r1)) (leakyVec (branchVec (mulf (F := Ideal) x0 x1) w2 r2)) := by
  unfold k0_pay1
  simp only [shapeCast_self]
  rfl

/-- A branch at (p, q): the sum over the contracted positions plus the bias row's entry at q. -/
theorem branch_apply (a : FVec Ideal S4000x128 .f32) (w : FVec Ideal S128x128 .f32) (r : FVec Ideal S1x128 .f32)
    (p : Fin 4000) (q : Fin 128) :
    branchVec a w r (ix2 p q) = TwoBranch.affine a w (fun c => r (ix2 (0 : Fin 1) c)) p q := by
  show FloatOps.matmul (F := Ideal) dot_S4000x128_S128x128_S4000x128_1_0_0_1_n_n none (truncf (F := Ideal) .bf16 a bitsLt_bf16_f32)
        (truncf (F := Ideal) .bf16 w bitsLt_bf16_f32) (constant (F := Ideal) S4000x128 .f32 0x00000000#32) (ix2 p q)
      + broadcastTo S4000x128 r broadcasts_S1x128_S4000x128 (ix2 p q) = _
  rw [PlainDot.matmul_zero_apply dot_plain, broadcastTo_1b_ab_apply]
  rfl

/-- The blockwise rectifier at an index is the rectifier of the entry. -/
theorem leakyVec_apply (v : FVec Ideal S4000x128 .f32) (j : S4000x128.Idx) : leakyVec v j = TwoBranch.leaky (v j) := rfl

/-- The body's stored value at (p, q) is the layer of the loaded blocks. -/
theorem payload_apply (x0 x1 : FVec Ideal S4000x128 .f32) (w1 w2 : FVec Ideal S128x128 .f32) (r1 r2 : FVec Ideal S1x128 .f32)
    (p : Fin 4000) (q : Fin 128) :
    k0_pay1 (F := Ideal) x0 x1 w1 w2 r1 r2 (ix2 p q)
      = TwoBranch.mix x0 x1 w1 w2 (fun c => r1 (ix2 (0 : Fin 1) c)) (fun c => r2 (ix2 (0 : Fin 1) c)) (ix2 p q) := by
  rw [pay_eq, TwoBranch.mix_ix2]
  show leakyVec (branchVec x0 w1 r1) (ix2 p q) + leakyVec (branchVec (mulf (F := Ideal) x0 x1) w2 r2) (ix2 p q) = _
  rw [leakyVec_apply, leakyVec_apply, branch_apply, branch_apply]
  rfl

/-- THE BLOCK AGAINST THE WHOLE ARRAY. If the two row blocks hold rows `row p` of two 100000-row arrays, the weight
    blocks are the weights and the bias rows hold the biases, then what the body stores at (p, q) is the layer of the
    whole arrays at (row p, q): a branch depends on its left operand only through the one row. -/
theorem block_eq (X0 X1 : FVec Ideal S4000x128 .f32) (Wa Wb : FVec Ideal S128x128 .f32) (Ra Rb : FVec Ideal S1x128 .f32)
    (A Fe : FVec Ideal S100000x128 .f32) (W1 W2 : FVec Ideal S128x128 .f32) (b1 b2 : Fin 128 → Ideal .f32)
    (row : Fin 4000 → Fin 100000)
    (h0 : ∀ p k, X0 (ix2 p k) = A (ix2 (row p) k)) (h1 : ∀ p k, X1 (ix2 p k) = Fe (ix2 (row p) k))
    (hWa : Wa = W1) (hWb : Wb = W2)
    (hRa : ∀ c, Ra (ix2 (0 : Fin 1) c) = b1 c) (hRb : ∀ c, Rb (ix2 (0 : Fin 1) c) = b2 c)
    (p : Fin 4000) (q : Fin 128) :
    k0_pay1 (F := Ideal) X0 X1 Wa Wb Ra Rb (ix2 p q) = TwoBranch.mix A Fe W1 W2 b1 b2 (ix2 (row p) q) := by
  subst hWa hWb
  have eRa : (fun c => Ra (ix2 (0 : Fin 1) c)) = b1 := funext hRa
  have eRb : (fun c => Rb (ix2 (0 : Fin 1) c)) = b2 := funext hRb
  rw [payload_apply, TwoBranch.mix_ix2, TwoBranch.mix_ix2, eRa, eRb,
    TwoBranch.affine_congr X0 A Wa b1 p (row p) q (h0 p),
    TwoBranch.affine_congr (fun i => X0 i * X1 i) (fun i => A i * Fe i) Wb b2 p (row p) q
      (fun k => by show X0 (ix2 p k) * X1 (ix2 p k) = A (ix2 (row p) k) * Fe (ix2 (row p) k); rw [h0, h1])]

end Cert.KernelIdeal.Block

end
-- ==== Proof.BlockRows.lean ====
/-
  Where each window's block sits in its array. At grid point t the three row-blocked windows (the aggregated array, the
  node features, the result) cover rows 4000 t .. 4000 t + 3999 and all 128 columns: entry (p, k) of the block is entry
  (4000 t + p, k) of the array. The weight windows and the bias-row windows are the whole of their arrays at every point.
  The result's 25 blocks tile the 100000 rows: row r lies in the block of point r / 4000. Only index arithmetic is here;
  no array's contents are mentioned.
-/
import proofs.«110677_j3693671874622_1_alg».proof.Proof.Gen.KernelIdeal.Launch
import proofs.«110677_j3693671874622_1_alg».proof.Proof.Gen.KernelIdeal.Points
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx

/-- The printed index maps, decided over the 25 points: the three row-blocked windows are at block row t and block column
    0; the weights and the bias rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of block t is row 4000 t + p of the array. -/
def blockRow (t : Fin cfg0.N) (p : Fin 4000) : Fin 100000 :=
  ⟨t.val * 4000 + p.val, by have h1 := t.isLt; have h2 := p.isLt; have h3 : cfg0.N = 25 := N_0; omega⟩

/-- The aggregated array's block at point t: entry (p, k) is array entry (4000 t + p, k). -/
theorem emb_rows0 (t : Fin cfg0.N) (p : Fin 4000) (k : Fin 128) :
    ((cfg0.win 0).blk t).view.emb (ix2 p k) = ix2 (n0 := 100000) (n1 := 128) (blockRow t p) k := by
  obtain ⟨e00, e01, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

/-- The node features' block likewise. -/
theorem emb_rows1 (t : Fin cfg0.N) (p : Fin 4000) (k : Fin 128) :
    ((cfg0.win 1).blk t).view.emb (ix2 p k) = ix2 (n0 := 100000) (n1 := 128) (blockRow t p) k := by
  obtain ⟨-, -, e10, e11, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

/-- The result's block likewise, at any index of the block. -/
theorem emb_rows6 (t : Fin cfg0.N) (y : S4000x128.Idx) :
    ((cfg0.win 6).blk t).view.emb y = ix2 (n0 := 100000) (n1 := 128) (blockRow t (y 0)) (y 1) := by
  obtain ⟨-, -, -, -, e60, e61, -⟩ := idx_facts t
  funext a; apply Fin.ext
  match a with
  | ⟨0, _⟩ => show win0_6.index t (0 : Fin 2) * 4000 + 1 * (y 0).val = t.val * 4000 + (y 0).val; omega
  | ⟨1, _⟩ => show win0_6.index t (1 : Fin 2) * 128 + 1 * (y 1).val = (y 1).val; omega

/-- The first weight window is its whole array at every point. -/
theorem emb_whole2 (t : Fin cfg0.N) (z : S128x128.Idx) : ((cfg0.win 2).blk t).view.emb z = z := by
  obtain ⟨-, -, -, -, -, -, e20, e21, -⟩ := idx_facts t
  funext a; apply Fin.ext
  match a with
  | ⟨0, _⟩ => show win0_2.index t (0 : Fin 2) * 128 + 1 * (z 0).val = (z 0).val; omega
  | ⟨1, _⟩ => show win0_2.index t (1 : Fin 2) * 128 + 1 * (z 1).val = (z 1).val; omega

/-- The second weight window likewise. -/
theorem emb_whole4 (t : Fin cfg0.N) (z : S128x128.Idx) : ((cfg0.win 4).blk t).view.emb z = z := by
  obtain ⟨-, -, -, -, -, -, -, -, -, -, e40, e41, -⟩ := idx_facts t
  funext a; apply Fin.ext
  match a with
  | ⟨0, _⟩ => show win0_4.index t (0 : Fin 2) * 128 + 1 * (z 0).val = (z 0).val; omega
  | ⟨1, _⟩ => show win0_4.index t (1 : Fin 2) * 128 + 1 * (z 1).val = (z 1).val; omega

/-- The first bias-row window is its whole 1 x 128 array at every point. -/
theorem emb_whole3 (t : Fin cfg0.N) (z : S1x128.Idx) : ((cfg0.win 3).blk t).view.emb z = z := by
  obtain ⟨-, -, -, -, -, -, -, -, e30, e31, -⟩ := idx_facts t
  funext a; apply Fin.ext
  match a with
  | ⟨0, _⟩ => show win0_3.index t (0 : Fin 2) * 1 + 1 * (z 0).val = (z 0).val; omega
  | ⟨1, _⟩ => show win0_3.index t (1 : Fin 2) * 128 + 1 * (z 1).val = (z 1).val; omega

/-- The second bias-row window likewise. -/
theorem emb_whole5 (t : Fin cfg0.N) (z : S1x128.Idx) : ((cfg0.win 5).blk t).view.emb z = z := by
  obtain ⟨-, -, -, -, -, -, -, -, -, -, -, -, e50, e51⟩ := idx_facts t
  funext a; apply Fin.ext
  match a with
  | ⟨0, _⟩ => show win0_5.index t (0 : Fin 2) * 1 + 1 * (z 0).val = (z 0).val; omega
  | ⟨1, _⟩ => show win0_5.index t (1 : Fin 2) * 128 + 1 * (z 1).val = (z 1).val; omega

/-- An index of the result array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v15).slice (win0_6.rect t)).set ↔ _
  rw [View.set_slice_whole, Rect.mem_set_unit]
  exact Iff.rfl

/-- The blocks tile the array: row r lies in the block of point r / 4000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have hq : (i 0).val / 4000 < cfg0.N := by omega
  obtain ⟨-, -, -, -, e60, e61, -⟩ := idx_facts ⟨(i 0).val / 4000, hq⟩
  refine ⟨⟨(i 0).val / 4000, hq⟩, flush0_6 _, ?_⟩
  rw [mem_blk]
  intro a
  match a with
  | ⟨0, _⟩ =>
    show win0_6.index ⟨(i 0).val / 4000, hq⟩ (0 : Fin 2) * 4000 ≤ (i 0).val ∧ (i 0).val < win0_6.index ⟨(i 0).val / 4000, hq⟩ (0 : Fin 2) * 4000 + 4000
    rw [e60]
    show (i 0).val / 4000 * 4000 ≤ (i 0).val ∧ (i 0).val < (i 0).val / 4000 * 4000 + 4000
    omega
  | ⟨1, _⟩ =>
    show win0_6.index ⟨(i 0).val / 4000, hq⟩ (1 : Fin 2) * 128 ≤ (i 1).val ∧ (i 1).val < win0_6.index ⟨(i 0).val / 4000, hq⟩ (1 : Fin 2) * 128 + 128
    omega

end Cert.KernelIdeal.Whole

end
-- ==== Proof.KernelArray.lean ====
/-
  The kernel's result array after the run. Grid point t stages rows 4000 t .. 4000 t + 3999 of the aggregated array and
  of the node features, both weight matrices whole and both bias rows whole, and writes back the same rows of the result:
  what it writes is the two-branch layer of the whole arrays read at those rows. The 25 blocks tile the 100000 rows, so
  the array ends holding the layer everywhere. The bias rows are the 128-entry biases recast to 1 x 128 before the call.
-/
import proofs.«110677_j3693671874622_1_alg».proof.Proof.Gen.KernelIdeal.Value
import proofs.«110677_j3693671874622_1_alg».proof.Proof.BlockPayload
import proofs.«110677_j3693671874622_1_alg».proof.Proof.BlockRows
import Idealize.ShloMosaic.Lib.StableHlo.Run
import Idealize.ShloMosaic.Lib.ValueLayout

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

theorem hz : (![0, 0] : Fin 2 → Nat) = fun _ => 0 := funext fun a => by fin_cases a <;> rfl

/-! ## One grid point, over any arrays -/

/-- What the body stores at point t from the blocks of ANY six arrays, read at an index y of the block, is the layer of
    those arrays at the array index under y. -/
theorem point_eq (t : Fin cfg0.N) (A0 A1 : S100000x128.Idx → Ideal .f32) (A2 A4 : S128x128.Idx → Ideal .f32)
    (A3 A5 : S1x128.Idx → Ideal .f32) (y : S4000x128.Idx) :
    k0_pay1 (F := Ideal) (((cfg0.win 0).blk t).view.read (Elt Ideal) A0) (((cfg0.win 1).blk t).view.read (Elt Ideal) A1)
        (((cfg0.win 2).blk t).view.read (Elt Ideal) A2) (((cfg0.win 4).blk t).view.read (Elt Ideal) A4)
        (((cfg0.win 3).blk t).view.read (Elt Ideal) A3) (((cfg0.win 5).blk t).view.read (Elt Ideal) A5) y
      = TwoBranch.mix A0 A1 A2 A4 (fun q => A3 (ix2 (0 : Fin 1) q)) (fun q => A5 (ix2 (0 : Fin 1) q))
          (((cfg0.win 6).blk t).view.emb y) := by
  have h0 : ∀ (p : Fin 4000) (k : Fin 128),
      ((cfg0.win 0).blk t).view.read (Elt Ideal) A0 (ix2 p k) = A0 (ix2 (blockRow t p) k) :=
    fun p k => congrArg A0 (emb_rows0 t p k)
  have h1 : ∀ (p : Fin 4000) (k : Fin 128),
      ((cfg0.win 1).blk t).view.read (Elt Ideal) A1 (ix2 p k) = A1 (ix2 (blockRow t p) k) :=
    fun p k => congrArg A1 (emb_rows1 t p k)
  have h2 : ((cfg0.win 2).blk t).view.read (Elt Ideal) A2 = A2 := funext fun z => congrArg A2 (emb_whole2 t z)
  have h4 : ((cfg0.win 4).blk t).view.read (Elt Ideal) A4 = A4 := funext fun z => congrArg A4 (emb_whole4 t z)
  have h3 : ∀ q : Fin 128, ((cfg0.win 3).blk t).view.read (Elt Ideal) A3 (ix2 (0 : Fin 1) q) = A3 (ix2 (0 : Fin 1) q) :=
    fun q => congrArg A3 (emb_whole3 t (ix2 (0 : Fin 1) q))
  have h5 : ∀ q : Fin 128, ((cfg0.win 5).blk t).view.read (Elt Ideal) A5 (ix2 (0 : Fin 1) q) = A5 (ix2 (0 : Fin 1) q) :=
    fun q => congrArg A5 (emb_whole5 t (ix2 (0 : Fin 1) q))
  generalize ((cfg0.win 0).blk t).view.read (Elt Ideal) A0 = B0 at h0 ⊢
  generalize ((cfg0.win 1).blk t).view.read (Elt Ideal) A1 = B1 at h1 ⊢
  generalize ((cfg0.win 2).blk t).view.read (Elt Ideal) A2 = B2 at h2 ⊢
  generalize ((cfg0.win 4).blk t).view.read (Elt Ideal) A4 = B4 at h4 ⊢
  generalize ((cfg0.win 3).blk t).view.read (Elt Ideal) A3 = B3 at h3 ⊢
  generalize ((cfg0.win 5).blk t).view.read (Elt Ideal) A5 = B5 at h5 ⊢
  rw [emb_rows6 t y]
  exact (congrArg (k0_pay1 (F := Ideal) B0 B1 B2 B4 B3 B5) (eq_ix2 (n0 := 4000) (n1 := 128) y)).trans
    (Block.block_eq B0 B1 B2 B4 B3 B5 A0 A1 A2 A4 (fun q => A3 (ix2 (0 : Fin 1) q)) (fun q => A5 (ix2 (0 : Fin 1) q))
      (blockRow t) h0 h1 h2 h4 h3 h5 (y 0) (y 1))

/-- The same as what point t writes back: the stored block, cut to the window, is the window's block of the layer. -/
theorem point_flush (t : Fin cfg0.N) (A0 A1 : S100000x128.Idx → Ideal .f32) (A2 A4 : S128x128.Idx → Ideal .f32)
    (A3 A5 : S1x128.Idx → Ideal .f32) :
    (cfg0.win 6).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 4).blk t).view.read (Elt Ideal) A4)
          (((cfg0.win 3).blk t).view.read (Elt Ideal) A3) (((cfg0.win 5).blk t).view.read (Elt Ideal) A5))
      = ((cfg0.win 6).blk t).view.read (Elt Ideal)
          (TwoBranch.mix A0 A1 A2 A4 (fun q => A3 (ix2 (0 : Fin 1) q)) (fun q => A5 (ix2 (0 : Fin 1) q))) := by
  have key := point_eq t A0 A1 A2 A4 A3 A5
  generalize k0_pay1 (F := Ideal) (((cfg0.win 0).blk t).view.read (Elt Ideal) A0) (((cfg0.win 1).blk t).view.read (Elt Ideal) A1)
          (((cfg0.win 2).blk t).view.read (Elt Ideal) A2) (((cfg0.win 4).blk t).view.read (Elt Ideal) A4)
          (((cfg0.win 3).blk t).view.read (Elt Ideal) A3) (((cfg0.win 5).blk t).view.read (Elt Ideal) A5) = P at key ⊢
  generalize TwoBranch.mix A0 A1 A2 A4 (fun q => A3 (ix2 (0 : Fin 1) q)) (fun q => A5 (ix2 (0 : Fin 1) q)) = G at key ⊢
  funext y
  exact key y

variable (m : (ℓ : Loc nD τ sig) → Buf (Elt Ideal) ℓ) (ρ : Dev nD → PrngReg)

/-! ## The arrays the region finds -/

/-- The first bias row as the region finds it: the bias recast from 128 entries to 1 x 128. -/
theorem biasRow1 (c : Dev nD) :
    (V m c main_v13 : S1x128.Idx → Ideal .f32) = shapeCast S1x128 (m ((c : Thread nD τ).loc main_arg5)) shapeCasts_S128_S1x128 := by
  dsimp only [Gen.V, Gen.hostOps0]; after_results; rfl

/-- The second bias row likewise. -/
theorem biasRow2 (c : Dev nD) :
    (V m c main_v14 : S1x128.Idx → Ideal .f32) = shapeCast S1x128 (m ((c : Thread nD τ).loc main_arg7)) shapeCasts_S128_S1x128 := by
  dsimp only [Gen.V, Gen.hostOps0]; after_results; rfl

/-- The layer of the arrays as the region finds them, each named as its window's array. -/
def out (c : Dev nD) : S100000x128.Idx → Ideal .f32 :=
  TwoBranch.mix (V m c (Pipeline.arrRef spec0 0)) (V m c (Pipeline.arrRef spec0 1)) (V m c (Pipeline.arrRef spec0 2))
    (V m c (Pipeline.arrRef spec0 4)) (fun q => V m c (Pipeline.arrRef spec0 3) (ix2 (0 : Fin 1) q))
    (fun q => V m c (Pipeline.arrRef spec0 5) (ix2 (0 : Fin 1) q))

/-- WHAT POINT t WRITES BACK is block t of the layer. -/
theorem flushed_eq (c : Dev nD) (t : Fin cfg0.N) :
    (dats m 0 c).flushed 6 t = ((cfg0.win 6).blk t).view.read (Elt Ideal) (out m c) := by
  rw [flushed6]
  unfold out0_6
  rw [View.canon_unit_zero hz]
  simp only [View.ld_unit_zero (S := S4000x128) hz, View.ld_unit_zero (S := S128x128) hz, View.ld_unit_zero (S := S1x128) hz]
  unfold iblk out
  generalize V m c (Pipeline.arrRef spec0 0) = A0
  generalize V m c (Pipeline.arrRef spec0 1) = A1
  generalize V m c (Pipeline.arrRef spec0 2) = A2
  generalize V m c (Pipeline.arrRef spec0 3) = A3
  generalize V m c (Pipeline.arrRef spec0 4) = A4
  generalize V m c (Pipeline.arrRef spec0 5) = A5
  exact point_flush t A0 A1 A2 A4 A3 A5

/-- THE ARRAY after the run is the layer of the arrays as the region finds them. -/
theorem final (c : Dev nD) : (dats m 0 c).arrAt 6 cfg0.N = out m c :=
  (dats m 0 c).arrAt_eq_of_cover 6 (out m c) (fun t _ => flushed_eq m c t) cover

/-- The layer of the ARGUMENTS: the aggregated array as the host operations before the call leave it, the node features,
    the weights and the biases as launched. -/
def result (c : Dev nD) : S100000x128.Idx → Ideal .f32 :=
  TwoBranch.mix (V m c main_v12) (m ((c : Thread nD τ).loc main_arg3)) (m ((c : Thread nD τ).loc main_arg4))
    (m ((c : Thread nD τ).loc main_arg6)) (fun q => m ((c : Thread nD τ).loc main_arg5) (ix1 q))
    (fun q => m ((c : Thread nD τ).loc main_arg7) (ix1 q))

/-- The arrays the region finds are the arguments, and a bias row's entry (0, q) is the bias at q. -/
theorem out_eq (c : Dev nD) : out m c = result m c := by
  have e0 : V m c (Pipeline.arrRef spec0 0) = V m c main_v12 := rfl
  have e1 : V m c (Pipeline.arrRef spec0 1) = m ((c : Thread nD τ).loc main_arg3) := V_main_arg3 m c
  have e2 : V m c (Pipeline.arrRef spec0 2) = m ((c : Thread nD τ).loc main_arg4) := V_main_arg4 m c
  have e4 : V m c (Pipeline.arrRef spec0 4) = m ((c : Thread nD τ).loc main_arg6) := V_main_arg6 m c
  have e3 : ∀ q : Fin 128, V m c (Pipeline.arrRef spec0 3) (ix2 (0 : Fin 1) q) = m ((c : Thread nD τ).loc main_arg5) (ix1 q) := by
    intro q
    refine (congrFun (biasRow1 m c) (ix2 (0 : Fin 1) q)).trans ?_
    exact shapeCast_a_1a_apply _ _ _ _
  have e5 : ∀ q : Fin 128, V m c (Pipeline.arrRef spec0 5) (ix2 (0 : Fin 1) q) = m ((c : Thread nD τ).loc main_arg7) (ix1 q) := by
    intro q
    refine (congrFun (biasRow2 m c) (ix2 (0 : Fin 1) q)).trans ?_
    exact shapeCast_a_1a_apply _ _ _ _
  unfold out result
  rw [e0, e1, e2, e4, funext e3, funext e5]

/-- The run: the result array ends at the layer of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (out_eq m c)), (h c).2⟩) (run_blocks m ρ)

end Cert.KernelIdeal.Whole

end
-- ==== Proof.ReferenceArray.lean ====
/-
  The reference's result, read index by index, is the two-branch layer of its own aggregated array: each matrix product
  is the sum over the 128 contracted positions, each bias is broadcast from its 128 entries through a 1 x 128 row, the
  rectifier is a comparison with zero, a product with the slope and a selection, and the second branch's left operand is
  the entrywise product of the aggregated array with the node features.
-/
import proofs.«110677_j3693671874622_1_alg».proof.Proof.Gen.ReferenceIdeal.Read
import proofs.«110677_j3693671874622_1_alg».proof.Proof.TwoBranchSpec

noncomputable section

namespace Cert.ReferenceIdeal.Whole

open Cert.ReferenceIdeal Cert.ReferenceIdeal.Read Idealize.ShloMosaic Idealize.ShloMosaic.ValueIdx

variable (x0 x1 : (⟨S1600000, .i32⟩ : BufTy).Contents (Elt Ideal)) (x2 : (⟨S1600000, .f32⟩ : BufTy).Contents (Elt Ideal))
  (x3 : (⟨S100000x128, .f32⟩ : BufTy).Contents (Elt Ideal))
  (x4 x6 : (⟨S128x128, .f32⟩ : BufTy).Contents (Elt Ideal)) (x5 x7 : (⟨S128, .f32⟩ : BufTy).Contents (Elt Ideal))

/-- The left operand of a product at (p, q) and contracted position k is the entry (p, k). -/
theorem lidx13 (p : Fin 100000) (q k : Fin 128) : lidx_main_v13 (ix2 p q) k = ix2 p k :=
  funext fun a => Fin.ext (by match a with | ⟨0, _⟩ => rfl | ⟨1, _⟩ => rfl)
/-- The right operand's is the entry (k, q). -/
theorem ridx13 (p : Fin 100000) (q k : Fin 128) : ridx_main_v13 (ix2 p q) k = ix2 k q :=
  funext fun a => Fin.ext (by match a with | ⟨0, _⟩ => rfl | ⟨1, _⟩ => rfl)
theorem lidx23 (p : Fin 100000) (q k : Fin 128) : lidx_main_v23 (ix2 p q) k = ix2 p k :=
  funext fun a => Fin.ext (by match a with | ⟨0, _⟩ => rfl | ⟨1, _⟩ => rfl)
theorem ridx23 (p : Fin 100000) (q k : Fin 128) : ridx_main_v23 (ix2 p q) k = ix2 k q :=
  funext fun a => Fin.ext (by match a with | ⟨0, _⟩ => rfl | ⟨1, _⟩ => rfl)
/-- A bias broadcast through a 1 x 128 row reads, at (p, q), its entry q. -/
theorem bias1 (p : Fin 100000) (q : Fin 128) : idx_main_v14 (idx_main_v15 (ix2 p q)) = ix1 q :=
  funext fun a => Fin.ext (by match a with | ⟨0, _⟩ => rfl)
theorem bias2 (p : Fin 100000) (q : Fin 128) : idx_main_v24 (idx_main_v25 (ix2 p q)) = ix1 q :=
  funext fun a => Fin.ext (by match a with | ⟨0, _⟩ => rfl)

/-- The first branch before its rectifier. -/
theorem pre1 (p : Fin 100000) (q : Fin 128) :
    val_main_v16 (F := Ideal) x0 x1 x2 x3 x4 x5 (ix2 p q)
      = TwoBranch.affine (val_main_v12 (F := Ideal) x0 x1 x2 x3) x4 (fun c => x5 (ix1 c)) p q := by
  rw [val_main_v16_apply, val_main_v13_apply, val_main_v15_apply, val_main_v14_apply]
  generalize val_main_v12 (F := Ideal) x0 x1 x2 x3 = A
  simp only [lidx13, ridx13, bias1]
  unfold TwoBranch.affine
  rw [Ideal.addf_def]

/-- The second branch before its rectifier: its left operand is the aggregated array times the node features. -/
theorem pre2 (p : Fin 100000) (q : Fin 128) :
    val_main_v26 (F := Ideal) x0 x1 x2 x3 x6 x7 (ix2 p q)
      = TwoBranch.affine (fun i => val_main_v12 (F := Ideal) x0 x1 x2 x3 i * x3 i) x6 (fun c => x7 (ix1 c)) p q := by
  rw [val_main_v26_apply, val_main_v23_apply, val_main_v25_apply, val_main_v24_apply]
  unfold val_main_v22
  generalize val_main_v12 (F := Ideal) x0 x1 x2 x3 = A
  simp only [lidx23, ridx23, bias2]
  unfold TwoBranch.affine
  rw [Ideal.addf_def]
  beta_reduce
  refine congrArg (· + x7 (ix1 q)) (Finset.sum_congr rfl fun k _ => ?_)
  rw [mulf_apply]

/-- The first rectifier. -/
theorem rect1 (i : S100000x128.Idx) :
    val_main_v21 (F := Ideal) x0 x1 x2 x3 x4 x5 i = TwoBranch.leaky (val_main_v16 (F := Ideal) x0 x1 x2 x3 x4 x5 i) := by
  rw [val_main_v21_apply, val_main_v18_apply, val_main_v20_apply, val_main_v17_apply, val_main_v19_apply,
    val_main_cst_1_apply, val_main_cst_2_apply]
  generalize val_main_v16 (F := Ideal) x0 x1 x2 x3 x4 x5 i = z
  rfl

/-- The second rectifier. -/
theorem rect2 (i : S100000x128.Idx) :
    val_main_v31 (F := Ideal) x0 x1 x2 x3 x6 x7 i = TwoBranch.leaky (val_main_v26 (F := Ideal) x0 x1 x2 x3 x6 x7 i) := by
  rw [val_main_v31_apply, val_main_v28_apply, val_main_v30_apply, val_main_v27_apply, val_main_v29_apply,
    val_main_cst_3_apply, val_main_cst_4_apply]
  generalize val_main_v26 (F := Ideal) x0 x1 x2 x3 x6 x7 i = z
  rfl

/-- The reference's result is the layer of its aggregated array, the node features, the weights and the biases. -/
theorem result_eq :
    val_main_v32 (F := Ideal) x0 x1 x2 x3 x4 x5 x6 x7
      = TwoBranch.mix (val_main_v12 (F := Ideal) x0 x1 x2 x3) x3 x4 x6 (fun c => x5 (ix1 c)) (fun c => x7 (ix1 c)) := by
  funext i
  obtain ⟨p, q, rfl⟩ : ∃ (p : Fin 100000) (q : Fin 128), i = ix2 p q := ⟨i 0, i 1, eq_ix2 i⟩
  rw [val_main_v32_apply, rect1, rect2, pre1, pre2, TwoBranch.mix_ix2, Ideal.addf_def]

end Cert.ReferenceIdeal.Whole

end
-- ==== Proof.SharedAggregate.lean ====
/-
  Both programs build the aggregated array by the same host operations of the same four arguments: the source indices
  wrapped once where negative, the feature rows gathered at them, each scaled by its edge value, and the scaled rows
  added into a zero array at the destination indices. So the array the kernel's call finds is the reference's own
  intermediate array, operation for operation; nothing about gathering or scattering has to be opened to see it.
-/
import proofs.«110677_j3693671874622_1_alg».proof.Proof.Gen.KernelIdeal.Frame
import proofs.«110677_j3693671874622_1_alg».proof.Proof.Gen.ReferenceIdeal.Read
import Idealize.ShloMosaic.Lib.StableHlo.Run

noncomputable section

namespace Cert.KernelIdeal.Whole

open Idealize.ShloMosaic Idealize.ShloMosaic.TcCoe Idealize.SL.Sem Idealize.ShloMosaic.StableHlo

/-- The aggregated array as the kernel's call finds it is the reference's aggregated array of the same arguments. -/
theorem agg_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v12 : Cert.KernelIdeal.S100000x128.Idx → Ideal .f32)
      = Cert.ReferenceIdeal.Read.val_main_v12 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  dsimp only [Cert.KernelIdeal.Gen.V, Cert.KernelIdeal.Gen.hostOps0]
  after_results
  rfl

end Cert.KernelIdeal.Whole

end
-- ==== Proof.lean ====
/-
  The kernel against its reference, over the extended reals. Both programs first build the same aggregated array a from
  the edge list (gather the source rows, scale by the edge values, add into the destination rows) and then compute, at
  node p and output feature q,

      leaky( sum_k a(p,k) W1(k,q) + b1(q) )  +  leaky( sum_k (a(p,k) f(p,k)) W2(k,q) + b2(q) ).

  The kernel does the second step in 25 blocks of 4000 rows, with the operands of its two matrix products cast to a
  narrower float format first (the identity on the extended reals) and the products accumulated into zeros; the reference
  does it on the whole arrays with the host's matrix product. Each product, either way, is the plain sum over the 128
  contracted positions, so the two results agree entry by entry with no algebra beyond that; finiteness of the inputs is
  never used. The idealization rewrote nothing, so there is nothing to preserve.
-/
import proofs.«110677_j3693671874622_1_alg».proof.Defs
import proofs.«110677_j3693671874622_1_alg».proof.Proof.Gen.Kernel
import proofs.«110677_j3693671874622_1_alg».proof.Proof.Gen.Kernel.Skeleton
import proofs.«110677_j3693671874622_1_alg».proof.Proof.Gen.Kernel.Launch
import proofs.«110677_j3693671874622_1_alg».proof.Proof.Gen.Kernel.Points
import proofs.«110677_j3693671874622_1_alg».proof.Proof.Gen.Kernel.Frame
import proofs.«110677_j3693671874622_1_alg».proof.Proof.Gen.KernelIdeal
import proofs.«110677_j3693671874622_1_alg».proof.Proof.Gen.KernelIdeal.Skeleton
import proofs.«110677_j3693671874622_1_alg».proof.Proof.Gen.KernelIdeal.Launch
import proofs.«110677_j3693671874622_1_alg».proof.Proof.Gen.KernelIdeal.Points
import proofs.«110677_j3693671874622_1_alg».proof.Proof.Gen.KernelIdeal.Frame
import proofs.«110677_j3693671874622_1_alg».proof.Proof.Gen.ReferenceIdeal
import proofs.«110677_j3693671874622_1_alg».proof.Proof.Gen.Pre_finite_inputs
import proofs.«110677_j3693671874622_1_alg».proof.Proof.Gen.KernelIdeal.Value
import proofs.«110677_j3693671874622_1_alg».proof.Proof.Gen.ReferenceIdeal.Run
import proofs.«110677_j3693671874622_1_alg».proof.Proof.Gen.ReferenceIdeal.Read
import proofs.«110677_j3693671874622_1_alg».proof.Proof.KernelArray
import proofs.«110677_j3693671874622_1_alg».proof.Proof.ReferenceArray
import proofs.«110677_j3693671874622_1_alg».proof.Proof.SharedAggregate
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at the two-branch layer of the same aggregated array, node features, weights
    and biases. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v32_eq, Cert.ReferenceIdeal.Whole.result_eq, a0, a1, a2, a3, a4, a5, a6, a7]
  show _ = Cert.KernelIdeal.Whole.result m c
  unfold Cert.KernelIdeal.Whole.result
  rw [Cert.KernelIdeal.Whole.agg_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
